-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel

variable [Facts]

def fn {F : FTy → Type} [FloatOps F] (main_arg0 : FVec F S8x2048x3 .f32) (main_arg1 : FVec F S8x2048x3 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_v4 : FVec F S8x2048x3 .f32 := Host.absf main_arg1
  let main_cst_0 : FVec F S_ .f32 := constant S_ .f32 0x7F800000#32
  let main_v5 : FVec F S8x2048x3 .f32 := broadcastInDim S8x2048x3 ![] bcast_S_S8x2048x3 main_cst_0
  let main_v6 : IVec S8x2048x3 1 := cmpf .olt main_v4 main_v5
  let main_c_1 : IVec S_ 1 := constantI S_ 1 1#1
  let main_v7 : IVec S_ 1 := (fun x v => Host.reduce IntOp.andi x v reducesTo_S8x2048x3_S_d0_1_2 h_S_) main_v6 main_c_1
  let main_v8 : IVec S_ 1 := andi main_v3 main_v7
  main_v8
-- ==== Kernel.lean ====
abbrev S8x2048x3 : Shape := ⟨3, ![8, 2048, 3]⟩
abbrev S8x2048 : Shape := ⟨2, ![8, 2048]⟩
abbrev S8x128x3 : Shape := ⟨3, ![8, 128, 3]⟩
abbrev S8x128 : Shape := ⟨2, ![8, 128]⟩
abbrev S8x128x1 : Shape := ⟨3, ![8, 128, 1]⟩
abbrev S8x2048x1 : Shape := ⟨3, ![8, 2048, 1]⟩
abbrev S8x1x2048 : Shape := ⟨3, ![8, 1, 2048]⟩
abbrev S8x128x2048 : Shape := ⟨3, ![8, 128, 2048]⟩
abbrev S_ : Shape := ⟨0, ![]⟩
abbrev S8 : Shape := ⟨1, ![8]⟩

abbrev nBuf : Space → Nat
  | .hbm => 15
  | .vmem => 10
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S8x2048, .f32⟩
  | .hbm, ⟨3, _⟩ => ⟨S8x2048, .f32⟩
  | .hbm, ⟨4, _⟩ => ⟨S_, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .local _ .vmem, ⟨0, _⟩ => ⟨S8x128x3, .f32⟩
  | .local _ .vmem, ⟨1, _⟩ => ⟨S8x128x3, .f32⟩
  | .local _ .vmem, ⟨2, _⟩ => ⟨S8x2048x3, .f32⟩
  | .local _ .vmem, ⟨3, _⟩ => ⟨S8x128, .f32⟩
  | .local _ .vmem, ⟨4, _⟩ => ⟨S8x128, .f32⟩
  | .local _ .vmem, ⟨5, _⟩ => ⟨S8x128x3, .f32⟩
  | .local _ .vmem, ⟨6, _⟩ => ⟨S8x128x3, .f32⟩
  | .local _ .vmem, ⟨7, _⟩ => ⟨S8x2048x3, .f32⟩
  | .local _ .vmem, ⟨8, _⟩ => ⟨S8x128, .f32⟩
  | .local _ .vmem, ⟨9, _⟩ => ⟨S8x128, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8x128x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x2048x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S8x128x3_S8x128x3_0_0_0 : ∀ a, (![0, 0, 0] : Fin 3 → Nat) a + S8x128x3.size a ≤ S8x128x3.size a
  h_S8x128x3 : 0 < S8x128x3.numel
  inb_S8x2048x3_S8x2048x3_0_0_0 : ∀ a, (![0, 0, 0] : Fin 3 → Nat) a + S8x2048x3.size a ≤ S8x2048x3.size a
  h_S8x2048x3 : 0 < S8x2048x3.numel
  slices_S8x128x3_o0_0_0_S8x128x1 : S8x128x3.Slices ![0, 0, 0] S8x128x1
  shapeCasts_S8x128x1_S8x128 : S8x128x1.ShapeCasts S8x128
  slices_S8x128x3_o0_0_1_S8x128x1 : S8x128x3.Slices ![0, 0, 1] S8x128x1
  slices_S8x128x3_o0_0_2_S8x128x1 : S8x128x3.Slices ![0, 0, 2] S8x128x1
  slices_S8x2048x3_o0_0_0_S8x2048x1 : S8x2048x3.Slices ![0, 0, 0] S8x2048x1
  shapeCasts_S8x2048x1_S8x2048 : S8x2048x1.ShapeCasts S8x2048
  slices_S8x2048x3_o0_0_1_S8x2048x1 : S8x2048x3.Slices ![0, 0, 1] S8x2048x1
  slices_S8x2048x3_o0_0_2_S8x2048x1 : S8x2048x3.Slices ![0, 0, 2] S8x2048x1
  shapeCasts_S8x128_S8x128x1 : S8x128.ShapeCasts S8x128x1
  shapeCasts_S8x2048_S8x1x2048 : S8x2048.ShapeCasts S8x1x2048
  broadcasts_S8x128x1_S8x128x2048 : S8x128x1.Broadcasts S8x128x2048
  broadcasts_S8x1x2048_S8x128x2048 : S8x1x2048.Broadcasts S8x128x2048
  reduces_S8x128x2048_S8x128 : S8x128x2048.Reduces [2] S8x128
  inb_S8x128_S8x128_0_0 : ∀ a, (![0, 0] : Fin 2 → Nat) a + S8x128.size a ≤ S8x128.size a
  h_S8x128 : 0 < S8x128.numel
  reducesTo_S8x2048_S8_d1 : S8x2048.ReducesTo [1] S8
  h_S_ : 0 < S_.numel
  bcast_S_S8 : S_.BroadcastsInDim S8 (![] : Fin 0 → Fin S8.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x3.size a ≤ S8x2048x3.size a
  hwx0_0 : ∀ i : grid0.Coords, EltTy.bits .f32 = 32 ∨ (Rect.block (s := S8x2048x3) S8x128x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x2048x3.size a ≤ S8x2048x3.size a
  hwx0_1 : ∀ i : grid0.Coords, EltTy.bits .f32 = 32 ∨ (Rect.block (s := S8x2048x3) S8x2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x2048.size a
  hwx0_2 : ∀ i : grid0.Coords, EltTy.bits .f32 = 32 ∨ (Rect.block (s := S8x2048) S8x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x3.size a ≤ S8x2048x3.size a
  hwx1_0 : ∀ i : grid1.Coords, EltTy.bits .f32 = 32 ∨ (Rect.block (s := S8x2048x3) S8x128x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x2048x3.size a ≤ S8x2048x3.size a
  hwx1_1 : ∀ i : grid1.Coords, EltTy.bits .f32 = 32 ∨ (Rect.block (s := S8x2048x3) S8x2048x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S8x2048.size a
  hwx1_2 : ∀ i : grid1.Coords, EltTy.bits .f32 = 32 ∨ (Rect.block (s := S8x2048) S8x128.size (cc1_transform_2 i) (hinb1_2 i)).WholeWords (EltTy.packing .f32)

variable [Facts₀]

abbrev win0_0 : Pipeline.Window sig grid0 :=
  Pipeline.Window.ofSpec (Memref.whole main_arg0) S8x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x2048x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S8x128x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8x2048x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x2048x3 : Shape := ⟨3, ![8, 2048, 3]⟩
abbrev S8x2048x1x3 : Shape := ⟨4, ![8, 2048, 1, 3]⟩
abbrev S8x1x2048x3 : Shape := ⟨4, ![8, 1, 2048, 3]⟩
abbrev S8x2048x2048x3 : Shape := ⟨4, ![8, 2048, 2048, 3]⟩
abbrev S_ : Shape := ⟨0, ![]⟩
abbrev S8x2048x2048 : Shape := ⟨3, ![8, 2048, 2048]⟩
abbrev S8x2048 : Shape := ⟨2, ![8, 2048]⟩
abbrev S8 : Shape := ⟨1, ![8]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S8x2048x1x3, .f32⟩
  | .hbm, ⟨3, _⟩ => ⟨S8x1x2048x3, .f32⟩
  | .hbm, ⟨4, _⟩ => ⟨S8x2048x2048x3, .f32⟩
  | .hbm, ⟨5, _⟩ => ⟨S8x2048x2048x3, .f32⟩
  | .hbm, ⟨6, _⟩ => ⟨S8x2048x2048x3, .f32⟩
  | .hbm, ⟨7, _⟩ => ⟨S8x2048x2048x3, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S_, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S8, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S8x2048x3_S8x2048x1x3_0_1_3 : S8x2048x3.BroadcastsInDim S8x2048x1x3 (![0, 1, 3] : Fin 3 → Fin S8x2048x1x3.rank)
  bcast_S8x2048x3_S8x1x2048x3_0_2_3 : S8x2048x3.BroadcastsInDim S8x1x2048x3 (![0, 2, 3] : Fin 3 → Fin S8x1x2048x3.rank)
  bcast_S8x2048x1x3_S8x2048x2048x3_0_1_2_3 : S8x2048x1x3.BroadcastsInDim S8x2048x2048x3 (![0, 1, 2, 3] : Fin 4 → Fin S8x2048x2048x3.rank)
  bcast_S8x1x2048x3_S8x2048x2048x3_0_1_2_3 : S8x1x2048x3.BroadcastsInDim S8x2048x2048x3 (![0, 1, 2, 3] : Fin 4 → Fin S8x2048x2048x3.rank)
  reducesTo_S8x2048x2048x3_S8x2048x2048_d3 : S8x2048x2048x3.ReducesTo [3] S8x2048x2048
  h_S_ : 0 < S_.numel
  reducesTo_S8x2048x2048_S8x2048_d2 : S8x2048x2048.ReducesTo [2] S8x2048
  reducesTo_S8x2048x2048_S8x2048_d1 : S8x2048x2048.ReducesTo [1] S8x2048
  reducesTo_S8x2048_S8_d1 : S8x2048.ReducesTo [1] S8
  bcast_S_S8 : S_.BroadcastsInDim S8 (![] : Fin 0 → Fin S8.rank)

variable [Facts₀]

class Facts : Prop extends Facts₀ where

variable [Facts]
-- ==== Proof.Spec.lean ====
/-
  The mathematics both programs compute, stated over the extended reals with no program in sight.

  Two point sets `P, Q` of 8 batches × 2048 points × 3 coordinates. For a point `p` of `P` and a point `q` of `Q` in one
  batch, their distance is `√((p₀-q₀)² + (p₁-q₁)² + (p₂-q₂)²)`; `nearest P Q` at `(b, n)` is the least distance from point
  `n` of `P` to a point of `Q` in batch `b`, folded from `+∞`. The squared difference is symmetric on EVERY extended
  real (the infinities included: `⊤ - ⊤ = ⊥ = ⊤ - ⊤`, and `(±∞)² = ⊤`), so the distance is symmetric, which is what lets
  the least distance from a point of `Q` to `P` be computed with the roles of the two sets exchanged.
-/
import Idealize.ShloMosaic.PureOps.Ideal.Laws
import Idealize.ShloMosaic.Lib.ValueIdx

noncomputable section

namespace Cert.Nearest

open Idealize.ShloMosaic Idealize.ShloMosaic.ValueIdx

/-- The squared difference of two extended reals. -/
def sqd (a b : EReal) : EReal := (a - b) * (a - b)

/-- It is symmetric at every pair, the infinities included. -/
theorem sqd_comm (a b : EReal) : sqd a b = sqd b a := by
  unfold sqd
  induction a using EReal.rec with
  | bot => induction b using EReal.rec with
    | bot => rfl
    | top => rfl
    | coe y => rfl
  | top => induction b using EReal.rec with
    | bot => rfl
    | top => rfl
    | coe y => rfl
  | coe x => induction b using EReal.rec with
    | bot => rfl
    | top => rfl
    | coe y =>
      rw [← EReal.coe_sub, ← EReal.coe_sub, ← EReal.coe_mul, ← EReal.coe_mul]
      exact congrArg _ (by ring)

/-- The distance between two points given by their three coordinates, summed in the order `(d₀² + d₁²) + d₂²`. -/
def dist3 (p q : Fin 3 → EReal) : EReal :=
  Ideal.sqrt ((sqd (p 0) (q 0) + sqd (p 1) (q 1)) + sqd (p 2) (q 2))

theorem dist3_comm (p q : Fin 3 → EReal) : dist3 p q = dist3 q p := by
  unfold dist3; rw [sqd_comm (p 0), sqd_comm (p 1), sqd_comm (p 2)]

/-- A set of points: 8 batches of 2048 points of 3 coordinates. -/
abbrev Pts : Shape := ⟨3, ![8, 2048, 3]⟩
/-- One number per point of a set. -/
abbrev PerPt : Shape := ⟨2, ![8, 2048]⟩

/-- Point `n` of batch `b`. -/
def pt (P : Pts.Idx → EReal) (b : Fin 8) (n : Fin 2048) : Fin 3 → EReal := fun c => P (ix3 b n c)

/-- The value the minimum is folded from: the f32 pattern of `+∞`, kept as a pattern (both programs write this word). -/
abbrev inf : EReal := Ideal.ofBits .f32 0x7F800000#32

/-- The least of a family of 2048 extended reals, from `inf`. -/
def least (f : Fin 2048 → EReal) : EReal := (Finset.univ : Finset (Fin 2048)).fold min inf f

/-- For each point of `P`, its distance to the nearest point of `Q` in the same batch. -/
def nearest (P Q : Pts.Idx → EReal) : PerPt.Idx → EReal :=
  fun j => least fun m => dist3 (pt P (j 0) (j 1)) (pt Q (j 0) m)

/-- A sum over three coordinates from zero is the three terms added left to right. -/
theorem zero_add_sum3 (f : Fin 3 → EReal) : (0 : EReal) + ∑ k : Fin 3, f k = (f 0 + f 1) + f 2 := by
  rw [zero_add, Fin.sum_univ_three]

end Cert.Nearest

end
-- ==== Proof.LibMinReduce.lean ====
/-
  A float `vector.multi_reduction <minimumf>` over ONE axis, read at the ideal values: at each reduced index it is the
  fold of `min`, from the accumulator's value, over that axis's coordinates. (The fold over the SET of source indices
  that drop to the reduced index is re-indexed by the bijection between that set and the dropped axis's coordinates.)
  Stated at any rank, axis and extents.
-/
import Idealize.ShloMosaic.PureOps.Ideal.Laws

namespace Idealize.ShloMosaic.Ideal

variable {φ : FTy}

/-- A row's minimum: `multiReduction .minimumf [a]` at `j` is `Finset.univ.fold min` from the accumulator's value over
    the source at `j` with each coordinate `k` inserted on the dropped axis `a`. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal
-- ==== Proof.Payload.lean ====
/-
  What one grid point of either launch stores, read at an index of the stored block.

  The body loads a block `x0` of 8 × 128 points and the whole other set `x1` of 8 × 2048 points, splits each into its three
  coordinate planes, spreads the planes against each other to 8 × 128 × 2048, takes the three differences, squares and adds
  them, takes the square root and reduces the last axis by `min` from `+∞`. So at row `(b, r)` of the block it stores the
  least distance from point `r` of `x0` to a point of `x1` in batch `b`.
-/
import proofs.«141647_j42021960024229_1_alg».proof.Proof.Gen.KernelIdeal.Skeleton
import proofs.«141647_j42021960024229_1_alg».proof.Proof.Spec
import proofs.«141647_j42021960024229_1_alg».proof.Proof.LibMinReduce
import Idealize.ShloMosaic.Lib.Pipeline.Value
import Idealize.ShloMosaic.Lib.ValueLayout

noncomputable section

namespace Cert.KernelIdeal.Payload

open Idealize.ShloMosaic Idealize.ShloMosaic.ValueIdx Cert.KernelIdeal Cert.KernelIdeal.Gen Cert.Nearest

/-- Coordinate plane `c` of the block, with the unit axis dropped and re-added and then spread along the last axis,
    read at `(b, r, m)`: coordinate `c` of point `r` of batch `b`, whatever `m`. -/
theorem plane_row (x : Vec Ideal S8x128x3 .f32) (c : Fin 3) (off : Fin 3 → Nat)
    (h0 : off 0 = 0) (h1 : off 1 = 0) (h2 : off 2 = c.val)
    (hs : S8x128x3.Slices off S8x128x1) (hd : S8x128x1.ShapeCasts S8x128) (hu : S8x128.ShapeCasts S8x128x1)
    (hb : S8x128x1.Broadcasts S8x128x2048) (b : Fin 8) (r : Fin 128) (m : Fin 2048) :
    broadcastTo S8x128x2048 (shapeCast S8x128x1 (shapeCast S8x128 (extractStridedSlice S8x128x1 off x hs) hd) hu) hb
        (ix3 b r m) = x (ix3 b r c) := by
  refine (broadcastTo_apply _ hb (ix3 b r m) (ix3 b r 0) ?_).trans ?_
  · intro a
    match a with
    | ⟨0, _⟩ => rfl
    | ⟨1, _⟩ => rfl
    | ⟨2, _⟩ => rfl
  refine (shapeCast_apply _ hu (ix3 b r 0) (ix2 b r) ?_).trans ?_
  · rw [Shape.rowMajor_val_two, Shape.rowMajor_val_three]
    show b.val * 128 + r.val = (b.val * 128 + r.val) * 1 + 0
    omega
  refine (shapeCast_apply _ hd (ix2 b r) (ix3 b r 0) ?_).trans ?_
  · rw [Shape.rowMajor_val_two, Shape.rowMajor_val_three]
    show (b.val * 128 + r.val) * 1 + 0 = b.val * 128 + r.val
    omega
  refine extractStridedSlice_apply off x hs (ix3 b r 0) (ix3 b r c) ?_
  intro a
  match a with
  | ⟨0, _⟩ => show b.val = off 0 + b.val; omega
  | ⟨1, _⟩ => show r.val = off 1 + r.val; omega
  | ⟨2, _⟩ => show c.val = off 2 + 0; omega

/-- Coordinate plane `c` of the whole other set, with the unit axis dropped and re-added in the middle and then spread
    along the middle axis, read at `(b, r, m)`: coordinate `c` of point `m` of batch `b`, whatever `r`. -/
theorem plane_col (x : Vec Ideal S8x2048x3 .f32) (c : Fin 3) (off : Fin 3 → Nat)
    (h0 : off 0 = 0) (h1 : off 1 = 0) (h2 : off 2 = c.val)
    (hs : S8x2048x3.Slices off S8x2048x1) (hd : S8x2048x1.ShapeCasts S8x2048) (hu : S8x2048.ShapeCasts S8x1x2048)
    (hb : S8x1x2048.Broadcasts S8x128x2048) (b : Fin 8) (r : Fin 128) (m : Fin 2048) :
    broadcastTo S8x128x2048 (shapeCast S8x1x2048 (shapeCast S8x2048 (extractStridedSlice S8x2048x1 off x hs) hd) hu) hb
        (ix3 b r m) = x (ix3 b m c) := by
  refine (broadcastTo_apply _ hb (ix3 b r m) (ix3 b 0 m) ?_).trans ?_
  · intro a
    match a with
    | ⟨0, _⟩ => rfl
    | ⟨1, _⟩ => rfl
    | ⟨2, _⟩ => rfl
  refine (shapeCast_apply _ hu (ix3 b 0 m) (ix2 b m) ?_).trans ?_
  · rw [Shape.rowMajor_val_two, Shape.rowMajor_val_three]
    show b.val * 2048 + m.val = (b.val * 1 + 0) * 2048 + m.val
    omega
  refine (shapeCast_apply _ hd (ix2 b m) (ix3 b m 0) ?_).trans ?_
  · rw [Shape.rowMajor_val_two, Shape.rowMajor_val_three]
    show (b.val * 2048 + m.val) * 1 + 0 = b.val * 2048 + m.val
    omega
  refine extractStridedSlice_apply off x hs (ix3 b m 0) (ix3 b m c) ?_
  intro a
  match a with
  | ⟨0, _⟩ => show b.val = off 0 + b.val; omega
  | ⟨1, _⟩ => show m.val = off 1 + m.val; omega
  | ⟨2, _⟩ => show c.val = off 2 + 0; omega

/-- The squared difference of two values known by name. -/
theorem sqd_of_eq {a b a' b' : EReal} (ha : a = a') (hb : b = b') : (a - b) * (a - b) = sqd a' b' := by
  subst ha; subst hb; rfl

/-- The first launch's stored block at row `(b, r)`. -/
theorem pay0_apply (x0 : Vec Ideal S8x128x3 .f32) (x1 : Vec Ideal S8x2048x3 .f32) (b : Fin 8) (r : Fin 128) :
    k0_pay1 (F := Ideal) x0 x1 (ix2 b r)
      = least fun m => dist3 (fun c => x0 (ix3 b r c)) (fun c => x1 (ix3 b m c)) := by
  unfold k0_pay1
  -- the reduction over the last axis is the fold of `min` from `+∞` over that axis's 2048 coordinates
  refine (Idealize.ShloMosaic.Ideal.multiReduction_minimumf_single _ _ reduces_S8x128x2048_S8x128 _ _ (ix2 b r)).trans ?_
  unfold least
  refine congrArg (fun f : Fin 2048 → EReal => (Finset.univ : Finset (Fin 2048)).fold min inf f) (funext fun m => ?_)
  -- the source index over `(b, r)` with `m` on the reduced axis is `(b, r, m)`
  have hl : reduces_S8x128x2048_S8x128.lift (ix2 b r) m = ix3 b r m := by
    funext a
    match a with
    | ⟨0, _⟩ => rfl
    | ⟨1, _⟩ => rfl
    | ⟨2, _⟩ => rfl
  rw [Function.comp_apply, hl]
  -- the six spread planes at `(b, r, m)`: coordinate `c` of point `r` of `x0`, of point `m` of `x1`
  have p0 := plane_row x0 0 ![0, 0, 0] rfl rfl rfl slices_S8x128x3_o0_0_0_S8x128x1 shapeCasts_S8x128x1_S8x128
    shapeCasts_S8x128_S8x128x1 broadcasts_S8x128x1_S8x128x2048 b r m
  have p1 := plane_row x0 1 ![0, 0, 1] rfl rfl rfl slices_S8x128x3_o0_0_1_S8x128x1 shapeCasts_S8x128x1_S8x128
    shapeCasts_S8x128_S8x128x1 broadcasts_S8x128x1_S8x128x2048 b r m
  have p2 := plane_row x0 2 ![0, 0, 2] rfl rfl rfl slices_S8x128x3_o0_0_2_S8x128x1 shapeCasts_S8x128x1_S8x128
    shapeCasts_S8x128_S8x128x1 broadcasts_S8x128x1_S8x128x2048 b r m
  have q0 := plane_col x1 0 ![0, 0, 0] rfl rfl rfl slices_S8x2048x3_o0_0_0_S8x2048x1 shapeCasts_S8x2048x1_S8x2048
    shapeCasts_S8x2048_S8x1x2048 broadcasts_S8x1x2048_S8x128x2048 b r m
  have q1 := plane_col x1 1 ![0, 0, 1] rfl rfl rfl slices_S8x2048x3_o0_0_1_S8x2048x1 shapeCasts_S8x2048x1_S8x2048
    shapeCasts_S8x2048_S8x1x2048 broadcasts_S8x1x2048_S8x128x2048 b r m
  have q2 := plane_col x1 2 ![0, 0, 2] rfl rfl rfl slices_S8x2048x3_o0_0_2_S8x2048x1 shapeCasts_S8x2048x1_S8x2048
    shapeCasts_S8x2048_S8x1x2048 broadcasts_S8x1x2048_S8x128x2048 b r m
  -- the square root, the sums, the products and the differences read pointwise
  unfold dist3
  exact congrArg Ideal.sqrt
    (congrArg₂ (· + ·) (congrArg₂ (· + ·) (sqd_of_eq p0 q0) (sqd_of_eq p1 q1)) (sqd_of_eq p2 q2))

/-- The second launch runs the same body. -/
theorem pay1_apply (x0 : Vec Ideal S8x128x3 .f32) (x1 : Vec Ideal S8x2048x3 .f32) (b : Fin 8) (r : Fin 128) :
    k1_pay1 (F := Ideal) x0 x1 (ix2 b r)
      = least fun m => dist3 (fun c => x0 (ix3 b r c)) (fun c => x1 (ix3 b m c)) :=
  pay0_apply x0 x1 b r

end Cert.KernelIdeal.Payload

end
-- ==== Proof.Region0.lean ====
/-
  One launch of the row-minimum body: its output array, after all sixteen grid points, is `nearest` of the array its
  row blocks walk and the array it keeps whole.

  Grid point `t` loads rows `128·t … 128·t + 127` of the walked array (every batch, all three coordinates) and the whole
  of the other array, and writes rows `128·t … 128·t + 127` of the output. At row `(b, r)` of its block it stores the
  least distance from point `128·t + r` of the walked array to a point of the other in batch `b` — which is `nearest` at
  `(b, 128·t + r)`. The sixteen row blocks tile the output, so the whole array ends at `nearest`.
-/
import proofs.«141647_j42021960024229_1_alg».proof.Proof.Gen.KernelIdeal.Frame
import proofs.«141647_j42021960024229_1_alg».proof.Proof.Payload
import proofs.«141647_j42021960024229_1_alg».proof.Proof.Spec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Payload Cert.Nearest

variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl

/-- Where the three windows' blocks sit at point `t`: the row block of the walked array and of the output move together
    along the points axis; every other block index is zero. -/
theorem block_indices : ∀ t : Fin cfg0.N,
    win0_0.index t (0 : Fin 3) = 0 ∧ win0_0.index t (1 : Fin 3) = win0_2.index t (1 : Fin 2) ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) ≤ 15 :=
  (by decide +kernel : ∀ t : Fin grid0.N, _)

/-- Every row block of the output is some point's. -/
theorem block_onto : ∀ q : Fin 16, ∃ t : Fin cfg0.N, win0_2.index t = ![0, q.val] :=
  (by decide +kernel : ∀ q : Fin 16, ∃ t : Fin grid0.N, win0_2.index t = ![0, q.val])

/-- What point `t` writes back is its block of `nearest` of the two arrays as the launch finds them. -/
theorem written (c : Dev nD) (t : Fin cfg0.N) :
    (dat0 V c).flushed 2 t
      = ((cfg0.win 2).blk t).view.read (Elt Ideal) (nearest (V c main_arg0) (V c main_arg1)) := by
  show (cfg0.win 2).cut (grid0.coords t) ((dat0 V c).after 2 t) = _
  rw [after0_2]
  unfold out0_2
  rw [View.canon_unit_zero zero2]
  simp only [View.ld_unit_zero (S := S8x128x3) zero3, View.ld_unit_zero (S := S8x2048x3) zero3]
  obtain ⟨e00, e01, e02, e10, e11, e12, e20, e21⟩ := block_indices t
  funext j
  obtain ⟨b, r, rfl⟩ : ∃ (b : Fin 8) (r : Fin 128), j = ix2 b r := ⟨j 0, j 1, eq_ix2 j⟩
  refine (pay0_apply (iblk0 V c 0 t) (iblk0 V c 1 t) b r).trans ?_
  rw [View.read_apply]
  unfold nearest
  refine congrArg least (funext fun m => ?_)
  refine congrArg₂ dist3 (funext fun k => ?_) (funext fun k => ?_)
  · show V c main_arg0 (((cfg0.win 0).blk t).view.emb (ix3 b r k))
      = V c main_arg0 (ix3 ((((cfg0.win 2).blk t).view.emb (ix2 b r)) 0) ((((cfg0.win 2).blk t).view.emb (ix2 b r)) 1) k)
    refine congrArg (V c main_arg0) (funext fun a => Fin.ext ?_)
    match a with
    | ⟨0, _⟩ => show win0_0.index t (0 : Fin 3) * 8 + 1 * b.val = win0_2.index t (0 : Fin 2) * 8 + 1 * b.val; omega
    | ⟨1, _⟩ => show win0_0.index t (1 : Fin 3) * 128 + 1 * r.val = win0_2.index t (1 : Fin 2) * 128 + 1 * r.val; omega
    | ⟨2, _⟩ => show win0_0.index t (2 : Fin 3) * 3 + 1 * k.val = k.val; omega
  · show V c main_arg1 (((cfg0.win 1).blk t).view.emb (ix3 b m k))
      = V c main_arg1 (ix3 ((((cfg0.win 2).blk t).view.emb (ix2 b r)) 0) m k)
    refine congrArg (V c main_arg1) (funext fun a => Fin.ext ?_)
    match a with
    | ⟨0, _⟩ => show win0_1.index t (0 : Fin 3) * 8 + 1 * b.val = win0_2.index t (0 : Fin 2) * 8 + 1 * b.val; omega
    | ⟨1, _⟩ => show win0_1.index t (1 : Fin 3) * 2048 + 1 * m.val = m.val; omega
    | ⟨2, _⟩ => show win0_1.index t (2 : Fin 3) * 3 + 1 * k.val = k.val; omega

/-- An index of the output is in point `t`'s block iff each coordinate is in the block's range on its axis. -/
theorem mem_block (t : Fin cfg0.N) (i : S8x2048.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- Every index of the output is in the block of the point that owns its row block: row `n` belongs to point `n / 128`. -/
theorem covered (i : S8x2048.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  obtain ⟨t, ht⟩ := block_onto ⟨(i 1).val / 128, by omega⟩
  have q0 : win0_2.index t (0 : Fin 2) = 0 := congrFun ht 0
  have q1 : win0_2.index t (1 : Fin 2) = (i 1).val / 128 := congrFun ht 1
  refine ⟨t, flush0_2 t, ?_⟩
  rw [mem_block]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 128 ≤ (i 1).val ∧ (i 1).val < win0_2.index t (1 : Fin 2) * 128 + 128; omega

/-- The output array after the launch. -/
theorem result (c : Dev nD) :
    (dat0 V c).arrAt 2 cfg0.N = nearest (V c main_arg0) (V c main_arg1) :=
  (dat0 V c).arrAt_eq_of_cover 2 (nearest (V c main_arg0) (V c main_arg1)) (fun t _ => written V c t) covered

end Cert.KernelIdeal.Region0

end
-- ==== Proof.Region1.lean ====
/-
  One launch of the row-minimum body: its output array, after all sixteen grid points, is `nearest` of the array its
  row blocks walk and the array it keeps whole.

  Grid point `t` loads rows `128·t … 128·t + 127` of the walked array (every batch, all three coordinates) and the whole
  of the other array, and writes rows `128·t … 128·t + 127` of the output. At row `(b, r)` of its block it stores the
  least distance from point `128·t + r` of the walked array to a point of the other in batch `b` — which is `nearest` at
  `(b, 128·t + r)`. The sixteen row blocks tile the output, so the whole array ends at `nearest`.
-/
import proofs.«141647_j42021960024229_1_alg».proof.Proof.Gen.KernelIdeal.Frame
import proofs.«141647_j42021960024229_1_alg».proof.Proof.Payload
import proofs.«141647_j42021960024229_1_alg».proof.Proof.Spec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Payload Cert.Nearest

variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl

/-- Where the three windows' blocks sit at point `t`: the row block of the walked array and of the output move together
    along the points axis; every other block index is zero. -/
theorem block_indices : ∀ t : Fin cfg1.N,
    win1_0.index t (0 : Fin 3) = 0 ∧ win1_0.index t (1 : Fin 3) = win1_2.index t (1 : Fin 2) ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) ≤ 15 :=
  (by decide +kernel : ∀ t : Fin grid1.N, _)

/-- Every row block of the output is some point's. -/
theorem block_onto : ∀ q : Fin 16, ∃ t : Fin cfg1.N, win1_2.index t = ![0, q.val] :=
  (by decide +kernel : ∀ q : Fin 16, ∃ t : Fin grid1.N, win1_2.index t = ![0, q.val])

/-- What point `t` writes back is its block of `nearest` of the two arrays as the launch finds them. -/
theorem written (c : Dev nD) (t : Fin cfg1.N) :
    (dat1 V c).flushed 2 t
      = ((cfg1.win 2).blk t).view.read (Elt Ideal) (nearest (V c main_arg1) (V c main_arg0)) := by
  show (cfg1.win 2).cut (grid1.coords t) ((dat1 V c).after 2 t) = _
  rw [after1_2]
  unfold out1_2
  rw [View.canon_unit_zero zero2]
  simp only [View.ld_unit_zero (S := S8x128x3) zero3, View.ld_unit_zero (S := S8x2048x3) zero3]
  obtain ⟨e00, e01, e02, e10, e11, e12, e20, e21⟩ := block_indices t
  funext j
  obtain ⟨b, r, rfl⟩ : ∃ (b : Fin 8) (r : Fin 128), j = ix2 b r := ⟨j 0, j 1, eq_ix2 j⟩
  refine (pay1_apply (iblk1 V c 0 t) (iblk1 V c 1 t) b r).trans ?_
  rw [View.read_apply]
  unfold nearest
  refine congrArg least (funext fun m => ?_)
  refine congrArg₂ dist3 (funext fun k => ?_) (funext fun k => ?_)
  · show V c main_arg1 (((cfg1.win 0).blk t).view.emb (ix3 b r k))
      = V c main_arg1 (ix3 ((((cfg1.win 2).blk t).view.emb (ix2 b r)) 0) ((((cfg1.win 2).blk t).view.emb (ix2 b r)) 1) k)
    refine congrArg (V c main_arg1) (funext fun a => Fin.ext ?_)
    match a with
    | ⟨0, _⟩ => show win1_0.index t (0 : Fin 3) * 8 + 1 * b.val = win1_2.index t (0 : Fin 2) * 8 + 1 * b.val; omega
    | ⟨1, _⟩ => show win1_0.index t (1 : Fin 3) * 128 + 1 * r.val = win1_2.index t (1 : Fin 2) * 128 + 1 * r.val; omega
    | ⟨2, _⟩ => show win1_0.index t (2 : Fin 3) * 3 + 1 * k.val = k.val; omega
  · show V c main_arg0 (((cfg1.win 1).blk t).view.emb (ix3 b m k))
      = V c main_arg0 (ix3 ((((cfg1.win 2).blk t).view.emb (ix2 b r)) 0) m k)
    refine congrArg (V c main_arg0) (funext fun a => Fin.ext ?_)
    match a with
    | ⟨0, _⟩ => show win1_1.index t (0 : Fin 3) * 8 + 1 * b.val = win1_2.index t (0 : Fin 2) * 8 + 1 * b.val; omega
    | ⟨1, _⟩ => show win1_1.index t (1 : Fin 3) * 2048 + 1 * m.val = m.val; omega
    | ⟨2, _⟩ => show win1_1.index t (2 : Fin 3) * 3 + 1 * k.val = k.val; omega

/-- An index of the output is in point `t`'s block iff each coordinate is in the block's range on its axis. -/
theorem mem_block (t : Fin cfg1.N) (i : S8x2048.Idx) :
    i ∈ ((cfg1.win 2).blk t).view.set ↔ ∀ a : Fin 2, win1_2.index t a * S8x128.size a ≤ (i a).val ∧ (i a).val < win1_2.index t a * S8x128.size a + S8x128.size a := by
  show i ∈ ((View.whole main_v1).slice (win1_2.rect t)).set ↔ _
  rw [View.set_slice_whole, Rect.mem_set_unit]
  exact Iff.rfl

/-- Every index of the output is in the block of the point that owns its row block: row `n` belongs to point `n / 128`. -/
theorem covered (i : S8x2048.Idx) :
    ∃ t : Fin cfg1.N, (cfg1.win 2).flush t = true ∧ i ∈ ((cfg1.win 2).blk t).view.set := by
  have hi0 : (i 0).val < 8 := (i 0).isLt
  have hi1 : (i 1).val < 2048 := (i 1).isLt
  obtain ⟨t, ht⟩ := block_onto ⟨(i 1).val / 128, by omega⟩
  have q0 : win1_2.index t (0 : Fin 2) = 0 := congrFun ht 0
  have q1 : win1_2.index t (1 : Fin 2) = (i 1).val / 128 := congrFun ht 1
  refine ⟨t, flush1_2 t, ?_⟩
  rw [mem_block]
  intro a
  match a with
  | ⟨0, _⟩ => show win1_2.index t (0 : Fin 2) * 8 ≤ (i 0).val ∧ (i 0).val < win1_2.index t (0 : Fin 2) * 8 + 8; omega
  | ⟨1, _⟩ => show win1_2.index t (1 : Fin 2) * 128 ≤ (i 1).val ∧ (i 1).val < win1_2.index t (1 : Fin 2) * 128 + 128; omega

/-- The output array after the launch. -/
theorem result (c : Dev nD) :
    (dat1 V c).arrAt 2 cfg1.N = nearest (V c main_arg1) (V c main_arg0) :=
  (dat1 V c).arrAt_eq_of_cover 2 (nearest (V c main_arg1) (V c main_arg0)) (fun t _ => written V c t) covered

end Cert.KernelIdeal.Region1

end
-- ==== Proof.Loss.lean ====
/-
  The last step both programs share: from two arrays of least distances (one number per point, 8 batches × 2048 points)
  to one number per batch — the mean of each array over its 2048 points (the sum from zero, divided by 2048) and the two
  means added. Stated once, with the host operations both programs print, so that neither side ever opens it.
-/
import proofs.«141647_j42021960024229_1_alg».proof.Proof.Spec

noncomputable section

namespace Cert.Nearest

open Idealize.ShloMosaic

/-- One number per batch. -/
abbrev PerBatch : Shape := ⟨1, ![8]⟩
/-- A single number. -/
abbrev One : Shape := ⟨0, ![]⟩

/-- The sum of the two per-batch means. The three shape facts are the ones each program states for these operations. -/
def loss (hr : PerPt.ReducesTo [1] PerBatch) (hs : 0 < One.numel)
    (hb : One.BroadcastsInDim PerBatch (![] : Fin 0 → Fin PerBatch.rank)) (u v : FVec Ideal PerPt .f32) : FVec Ideal PerBatch .f32 :=
  addf
    (Host.divf (Host.reduceAdd u (constant (F := Ideal) One .f32 0x00000000#32) hr hs)
      (broadcastInDim PerBatch ![] hb (constant (F := Ideal) One .f32 0x45000000#32)))
    (Host.divf (Host.reduceAdd v (constant (F := Ideal) One .f32 0x00000000#32) hr hs)
      (broadcastInDim PerBatch ![] hb (constant (F := Ideal) One .f32 0x45000000#32)))

end Cert.Nearest

end
-- ==== Proof.KernelValue.lean ====
/-
  The kernel program's result buffer, as one function of its two argument arrays.

  The first launch walks the first array against the whole second one and leaves `nearest arg0 arg1`; the second launch,
  entered with the two arguments as launched (the first launch writes neither), walks the second array against the whole
  first one and leaves `nearest arg1 arg0`; the host operations after them form `loss` of the two.
-/
import proofs.«141647_j42021960024229_1_alg».proof.Proof.KernelRun
import proofs.«141647_j42021960024229_1_alg».proof.Proof.Region0
import proofs.«141647_j42021960024229_1_alg».proof.Proof.Region1
import proofs.«141647_j42021960024229_1_alg».proof.Proof.Loss
import Idealize.ShloMosaic.Lib.StableHlo.Run

set_option maxRecDepth 16384

noncomputable section

namespace Cert.KernelIdeal.Result

open Idealize.ShloMosaic Idealize.ShloMosaic.TcCoe Idealize.SL.Sem Idealize.ShloMosaic.StableHlo
open Cert.KernelIdeal Cert.KernelIdeal.Gen Cert.Nearest

variable (m : (ℓ : Loc nD τ sig) → Buf (Elt Ideal) ℓ) (ρ : Dev nD → PrngReg)

/-- The host operations after the two launches form `loss` of the two launches' output arrays. -/
theorem after_launches (c : Dev nD) :
    W3 m ρ c (Proc.devRef .tc main_v8)
      = loss reducesTo_S8x2048_S8_d1 h_S_ bcast_S_S8 (W2 m ρ c (Proc.devRef .tc main_v0)) (W2 m ρ c (Proc.devRef .tc main_v1)) := by
  show StableHlo.after hostOps2 (W2 m ρ c) (Proc.devRef .tc main_v8) = _
  after_results
  rfl

/-- The second launch is entered with both arguments as launched: the first launch only reads them. -/
theorem entered_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem entered_arg1 (c : Dev nD) : V1 m ρ c main_arg1 = m ((c : Thread nD τ).loc main_arg1) :=
  (W1_arr m ρ c 1).trans (((dat0 (V0 m ρ) c).arrAt_in 1 rfl _).trans (A_eq0 (V0 m ρ) c 1))

/-- After both launches the first launch's output still holds what that launch left: the second launch does not touch it. -/
theorem first_output (c : Dev nD) :
    W2 m ρ c (Proc.devRef .tc main_v0)
      = nearest (m ((c : Thread nD τ).loc main_arg0)) (m ((c : Thread nD τ).loc main_arg1)) :=
  calc W2 m ρ c (Proc.devRef .tc main_v0)
    _ = W1 m ρ c (Proc.devRef .tc main_v0) := W2_of_ne m ρ c main_v0 (by decide)
    _ = (dat0 (V0 m ρ) c).arrAt 2 cfg0.N := W1_arr m ρ c 2
    _ = nearest (V0 m ρ c main_arg0) (V0 m ρ c main_arg1) := Region0.result (V0 m ρ) c
    _ = _ := rfl

/-- The second launch's output. -/
theorem second_output (c : Dev nD) :
    W2 m ρ c (Proc.devRef .tc main_v1)
      = nearest (m ((c : Thread nD τ).loc main_arg1)) (m ((c : Thread nD τ).loc main_arg0)) :=
  calc W2 m ρ c (Proc.devRef .tc main_v1)
    _ = (dat1 (V1 m ρ) c).arrAt 2 cfg1.N := W2_arr m ρ c 2
    _ = nearest (V1 m ρ c main_arg1) (V1 m ρ c main_arg0) := Region1.result (V1 m ρ) c
    _ = _ := by rw [entered_arg0, entered_arg1]

/-- The result buffer at the end of the run. -/
def value (c : Dev nD) : FVec Ideal S8 .f32 :=
  loss reducesTo_S8x2048_S8_d1 h_S_ bcast_S_S8
    (nearest (m ((c : Thread nD τ).loc main_arg0)) (m ((c : Thread nD τ).loc main_arg1)))
    (nearest (m ((c : Thread nD τ).loc main_arg1)) (m ((c : Thread nD τ).loc main_arg0)))

/-- Every weakly fair execution of the kernel program terminates with the result buffer at `value` and the arguments
    unchanged. -/
theorem run : θ_run defs (onTc (τ := τ) (main (F := Ideal))) ⟨m, fun _ => 0, ρ⟩ (fun r => ∀ c : Dev nD,
      r.2.mem ((c.tc : Thread nD τ).loc main_v8) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (by
      rw [after_launches, first_output, second_output]; rfl), (h c).2⟩)
    (ValueRun.run_result m ρ)

end Cert.KernelIdeal.Result

end
-- ==== Proof.RefValue.lean ====
/-
  The reference's two minimum reductions are `nearest` of the two point sets, in the two orders.

  The reference forms every difference `P[b,n,c] - Q[b,m,c]`, squares it, sums over `c` from zero, takes the square root
  — the distance from point `n` of `P` to point `m` of `Q` — and reduces that 8 × 2048 × 2048 array once over `m` and
  once over `n`. Over `m` that is `nearest P Q`. Over `n` it is, at `(b, m)`, the least distance from a point of `P` to
  point `m` of `Q`; the distance being symmetric, that is `nearest Q P`.
-/
import proofs.«141647_j42021960024229_1_alg».proof.Proof.Gen.ReferenceIdeal.Read
import proofs.«141647_j42021960024229_1_alg».proof.Proof.Spec
import Idealize.ShloMosaic.PureOps.Ideal.Laws
import Idealize.ShloMosaic.Lib.ValueIdx

noncomputable section

namespace Cert.ReferenceIdeal.RefValue

open Idealize.ShloMosaic Idealize.ShloMosaic.ValueIdx Cert.ReferenceIdeal Cert.ReferenceIdeal.Read Cert.Nearest

/-- The first set's element the difference at `(b, n, m, c)` reads. -/
theorem idxP (b : Fin 8) (n m : Fin 2048) (c : Fin 3) :
    idx_main_v0 (idx_main_v2 (idx_main_v6 (ix3 b n m) c)) = ix3 b n c :=
  funext fun a => Fin.ext (by match a with | ⟨0, _⟩ => rfl | ⟨1, _⟩ => rfl | ⟨2, _⟩ => rfl)

/-- The second set's element the difference at `(b, n, m, c)` reads. -/
theorem idxQ (b : Fin 8) (n m : Fin 2048) (c : Fin 3) :
    idx_main_v1 (idx_main_v3 (idx_main_v6 (ix3 b n m) c)) = ix3 b m c :=
  funext fun a => Fin.ext (by match a with | ⟨0, _⟩ => rfl | ⟨1, _⟩ => rfl | ⟨2, _⟩ => rfl)

/-- One element of the 8 × 2048 × 2048 array: the distance from point `n` of `P` to point `m` of `Q` in batch `b`. -/
theorem dist_apply (P Q : FVec Ideal S8x2048x3 .f32) (b : Fin 8) (n m : Fin 2048) :
    val_main_v7 (F := Ideal) P Q (ix3 b n m) = dist3 (pt P b n) (pt Q b m) := by
  rw [val_main_v7_apply, val_main_v6_apply, val_main_cst_apply, Ideal.ofBits_def, Ideal.ofBits_zero_f32,
    zero_add_sum3]
  simp only [val_main_v5_apply, val_main_v4_apply, val_main_v2_apply, val_main_v3_apply, val_main_v0_apply,
    val_main_v1_apply, idxP, idxQ]
  rfl

/-- Reduced over the second set's points: for each point of `P`, the nearest of `Q`. -/
theorem over_m_eq (P Q : FVec Ideal S8x2048x3 .f32) : val_main_v8 (F := Ideal) P Q = nearest P Q := by
  funext j
  obtain ⟨b, n, rfl⟩ : ∃ b n, j = ix2 b n := ⟨j 0, j 1, eq_ix2 j⟩
  unfold val_main_v8
  refine (Host.reduce_eq_fold_single FloatOps.minimumf _ _ _ (by decide) _ _).trans ?_
  unfold nearest least
  refine congrArg (fun f => Finset.fold min inf f Finset.univ) (funext fun m => ?_)
  refine (congrArg (val_main_v7 (F := Ideal) P Q) (?_ : _ = ix3 b n m)).trans (dist_apply P Q b n m)
  exact funext fun a => Fin.ext (by match a with | ⟨0, _⟩ => rfl | ⟨1, _⟩ => rfl | ⟨2, _⟩ => rfl)

/-- Reduced over the first set's points: for each point of `Q`, the nearest of `P`. -/
theorem over_n_eq (P Q : FVec Ideal S8x2048x3 .f32) : val_main_v9 (F := Ideal) P Q = nearest Q P := by
  funext j
  obtain ⟨b, m, rfl⟩ : ∃ b m, j = ix2 b m := ⟨j 0, j 1, eq_ix2 j⟩
  unfold val_main_v9
  refine (Host.reduce_eq_fold_single FloatOps.minimumf _ _ _ (by decide) _ _).trans ?_
  unfold nearest least
  refine congrArg (fun f => Finset.fold min inf f Finset.univ) (funext fun n => ?_)
  refine (congrArg (val_main_v7 (F := Ideal) P Q) (?_ : _ = ix3 b n m)).trans
    ((dist_apply P Q b n m).trans (dist3_comm _ _))
  exact funext fun a => Fin.ext (by match a with | ⟨0, _⟩ => rfl | ⟨1, _⟩ => rfl | ⟨2, _⟩ => rfl)

end Cert.ReferenceIdeal.RefValue

end
-- ==== Proof.lean ====
/-
  The kernel computes, per batch, the mean over the first point set of each point's distance to its nearest point of the
  second set, plus the same with the two sets exchanged; so does the reference.

  Over the extended reals both programs are `loss (nearest A B) (nearest B A)` of their two argument arrays `A`, `B`
  (Proof/Spec.lean, Proof/Loss.lean). The kernel program reaches it by two launches of one row-minimum body — the first
  walks `A` in blocks of 128 points against all of `B` (Proof/Region0.lean), the second walks `B` against all of `A`
  (Proof/Region1.lean), each grid point storing the least distance of its 128 points (Proof/Payload.lean) — and the host
  operations after them (Proof/KernelValue.lean). The reference forms all 2048 × 2048 distances once and reduces them over
  the second set's points and over the first set's; the second reduction is `nearest B A` because the squared difference,
  hence the distance, is symmetric on every extended real (Proof/RefValue.lean). No finiteness is used: sums are only
  regrouped, and the symmetry holds at the infinities too.

  The three frames are the generated frame proofs (the reference's is its generated run with the result dropped); the
  idealization rewrote no operation, so `preserves` is `True`.
-/
import proofs.«141647_j42021960024229_1_alg».proof.Defs
import proofs.«141647_j42021960024229_1_alg».proof.Proof.Gen.Kernel
import proofs.«141647_j42021960024229_1_alg».proof.Proof.Gen.Kernel.Skeleton
import proofs.«141647_j42021960024229_1_alg».proof.Proof.Gen.Kernel.Launch
import proofs.«141647_j42021960024229_1_alg».proof.Proof.Gen.Kernel.Points
import proofs.«141647_j42021960024229_1_alg».proof.Proof.Gen.Kernel.Frame
import proofs.«141647_j42021960024229_1_alg».proof.Proof.Gen.KernelIdeal
import proofs.«141647_j42021960024229_1_alg».proof.Proof.Gen.KernelIdeal.Skeleton
import proofs.«141647_j42021960024229_1_alg».proof.Proof.Gen.KernelIdeal.Launch
import proofs.«141647_j42021960024229_1_alg».proof.Proof.Gen.KernelIdeal.Points
import proofs.«141647_j42021960024229_1_alg».proof.Proof.Gen.KernelIdeal.Frame
import proofs.«141647_j42021960024229_1_alg».proof.Proof.Gen.ReferenceIdeal
import proofs.«141647_j42021960024229_1_alg».proof.Proof.Gen.ReferenceIdeal.Run
import proofs.«141647_j42021960024229_1_alg».proof.Proof.Gen.ReferenceIdeal.Read
import proofs.«141647_j42021960024229_1_alg».proof.Proof.Gen.Pre_finite_inputs
import proofs.«141647_j42021960024229_1_alg».proof.Proof.KernelValue
import proofs.«141647_j42021960024229_1_alg».proof.Proof.RefValue
import proofs.«141647_j42021960024229_1_alg».proof.Proof.Loss
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result, as a function of its two argument arrays: `loss` of its two minimum reductions, which are
    `nearest` in the two orders. -/
theorem reference_value (P Q : FVec Ideal Cert.ReferenceIdeal.S8x2048x3 .f32) :
    Cert.ReferenceIdeal.Read.val_main_v16 (F := Ideal) P Q
      = Cert.Nearest.loss Cert.ReferenceIdeal.Facts₀.reducesTo_S8x2048_S8_d1 Cert.ReferenceIdeal.Facts₀.h_S_
          Cert.ReferenceIdeal.Facts₀.bcast_S_S8 (Cert.Nearest.nearest P Q) (Cert.Nearest.nearest Q P) := by
  rw [← Cert.ReferenceIdeal.RefValue.over_m_eq, ← Cert.ReferenceIdeal.RefValue.over_n_eq]
  rfl

/-- From memories that agree on the two arguments, both programs end with the result buffer at one function of them. -/
theorem algebraic : Cert.algebraic_KernelIdeal_ReferenceIdeal := by
  intro m ρ m' ρ' _ hagree
  refine ⟨fun c => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, reference_value, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
